-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : IVec S1600000 32) (main_arg10 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1600000x128 : Shape := ⟨2, ![1600000, 128]⟩
abbrev S2000x128 : Shape := ⟨2, ![2000, 128]⟩
abbrev S2000x1 : Shape := ⟨2, ![2000, 1]⟩
abbrev S2000 : Shape := ⟨1, ![2000]⟩

abbrev nBuf : Space → Nat
  | .hbm => 75
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v46) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000x1, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x128, .f32⟩
  | 65 => ⟨S100000x128, .f32⟩
  | 66 => ⟨S100000x128, .f32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S_, .f32⟩
  | 76 => ⟨S100000x1, .f32⟩
  | 77 => ⟨S100000x1, .f32⟩
  | 78 => ⟨S100000x1, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S100000x1, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x1, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S_, .f32⟩
  | 9 => ⟨S100000x1, .f32⟩
  | 10 => ⟨S100000x1, .f32⟩
  | 11 => ⟨S100000x1, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_v40 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_17 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_cst_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_23 : Ref sig .tc := ⟨.hbm, 150, rfl⟩
abbrev main_v110 : Ref sig .tc := ⟨.hbm, 151, rfl⟩
abbrev main_v111 : Ref sig .tc := ⟨.hbm, 152, rfl⟩
abbrev main_cst_24 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GraphLayer.lean ====
/-
  One layer of the graph block, read one node at a time.

  A node's aggregated feature row `a` (128 numbers) is scaled by the node's in-degree factor `ν`, multiplied
  by the 128 × 128 weight matrix `W`, shifted by the bias `b`; the resulting row is normalised (its mean
  taken off, divided by the root of its variance plus a small constant, the mean and the variance being
  quotients by the literal 128), scaled by `g`, shifted by `β`, and passed through z ↦ z · σ(z), σ the logistic
  function.  Everything is over the extended reals with the exact operations, so the definitions below ARE the
  arithmetic both programs perform on a row; no property of the numbers is used or needed.
-/
import Idealize.ShloMosaic.PureOps.Ideal
import Idealize.ShloMosaic.Lib.ValueIdx

noncomputable section

namespace GraphLayer

open Idealize.ShloMosaic

/-- The scaled row times the weight matrix, plus the bias: entry `q` of the row the normalisation sees. -/
def affine (a : Fin 128 → EReal) (ν : EReal) (W : Fin 128 → Fin 128 → EReal) (b : Fin 128 → EReal) (q : Fin 128) : EReal :=
  (∑ k : Fin 128, a k * ν * W k q) + b q

/-- The mean of a row of 128 entries: their sum divided by the number 128 (the word `0x43000000`). -/
def mean128 (y : Fin 128 → EReal) : EReal :=
  Ideal.div (∑ q : Fin 128, y q) (Ideal.ofBits .f32 0x43000000#32)

/-- An entry with the row's mean taken off. -/
def centred (y : Fin 128 → EReal) (q : Fin 128) : EReal := y q - mean128 y

/-- The normalised row: centred, times the reciprocal root of (variance + ε), times the gain, plus the shift;
    ε is the single-precision word nearest 1e-5, the same word in both programs. -/
def layerNorm (y g β : Fin 128 → EReal) (q : Fin 128) : EReal :=
  centred y q * Ideal.rsqrt (mean128 (fun j => centred y j * centred y j) + Ideal.ofBits .f32 0x3727C5AC#32) * g q + β q

/-- z · σ(z). -/
def silu (z : EReal) : EReal := z * Ideal.logistic z

/-- One node's output row, entry `q`. -/
def node (a : Fin 128 → EReal) (ν : EReal) (W : Fin 128 → Fin 128 → EReal) (b g β : Fin 128 → EReal) (q : Fin 128) : EReal :=
  silu (layerNorm (affine a ν W b) g β q)

end GraphLayer

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.BlockValue.lean ====
/-
  The value a block of either program stores, read one entry at a time.

  A block holds 2000 nodes.  Its arithmetic is a chain of whole-block operations: the feature block is scaled row by
  row by the in-degree column, multiplied by the 128 × 128 weight matrix, shifted by the bias row; each row's mean
  (its lane sum over the number 128) is taken off; the squared deviations are averaged the same way, the small
  constant is added, the reciprocal root taken; the centred block is scaled by that column, by the gain row, shifted
  by the shift row; last, z ↦ z · σ(z) entry by entry (and, in the second program, the residual block is added).

  Read at the entry (p, q), every operation of the chain is either pointwise, or one of four index maps: a cast of a
  shape to itself (the identity), the cast of a length-2000 vector to a column (row p of the column is entry p), the
  broadcast of a column along the lanes (entry (p, q) is the column's row p) or of a single row over the rows (entry
  (p, q) is the row's lane q); or one of two sums: the lane sum (at row p, the sum over k < 128 of the entries
  (p, k)) and the matrix product (at (p, q), the sum over k < 128 of l(p, k) · r(k, q)).  The change of number format
  before the product is the identity on the extended reals.  So the entry (p, q) is exactly the per-node formula of
  `GraphLayer`, applied to row p of the features, entry p of the in-degree column, the weights and the three rows.

  The chain is cut into three named pieces (the block the normalisation sees, the column of row means, the
  normalised block) so that each piece is read at an index once, over a variable block, and the pieces compose.
-/
import proofs.«130483_j48936857371129_1_alg».proof.Proof.Gen.KernelIdeal.Skeleton
import proofs.«130483_j48936857371129_1_alg».proof.Proof.GraphLayer
import proofs.«130483_j48936857371129_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.BlockValue

open Idealize.ShloMosaic Idealize.ShloMosaic.ValueIdx Cert.KernelIdeal Cert.KernelIdeal.Gen

/-! ## Layout operations of a column, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a block, kept as a column: at row `p` the sum of the block's row `p`. -/
theorem rowSum_apply (Y : FVec Ideal S2000x128 .f32) (p : Fin 2000) (u : Fin 1) :
    shapeCast S2000x1 (multiReduction (F := Ideal) .add [1] S2000 Y 0x00000000#32 reduces_S2000x128_S2000 (.inl rfl) rfl)
        shapeCasts_S2000_S2000x1 (ix2 p u)
      = ∑ k : Fin 128, Y (ix2 p k) := by
  refine (shapeCast_a_a1_apply _ _ p u).trans ?_
  refine (Ideal.multiReduction_add_single Y _ reduces_S2000x128_S2000 (.inl rfl) rfl (ix1 p)).trans ?_
  refine Finset.sum_congr rfl fun k _ => congrArg Y ?_
  funext a
  match a with
  | ⟨0, _⟩ => rfl
  | ⟨1, _⟩ => rfl

/-- The matrix product of a `[2000, 128]` block with a `[128, 128]` matrix into the zero block. -/
theorem matmul_apply (l : FVec Ideal S2000x128 .bf16) (r : FVec Ideal S128x128 .bf16) (p : Fin 2000) (q : Fin 128) :
    matmul (F := Ideal) dot_S2000x128_S128x128_S2000x128_1_0_0_1_n_n none l r (constant S2000x128 .f32 0x00000000#32) (ix2 p q)
      = ∑ k : Fin 128, l (ix2 p k) * r (ix2 k q) :=
  (Ideal.matmul_constant_zero_apply _ none l r (ix2 p q)).trans
    (PlainDot.sum_eq dot_S2000x128_S128x128_S2000x128_1_0_0_1_n_n rfl rfl rfl rfl rfl rfl l r p q)

/-! ## The two broadcasts of the block shapes -/

/-- A column of the block broadcast along the lanes reads its row's entry. -/
theorem colBroadcast_apply (c : FVec Ideal S2000x1 .f32) (p : Fin 2000) (q : Fin 128) :
    broadcastTo S2000x128 c broadcasts_S2000x1_S2000x128 (ix2 p q) = c (ix2 p (0 : Fin 1)) :=
  broadcastTo_a1_ab_apply c _ p q

/-- A single row broadcast over the block's rows reads its lane's entry. -/
theorem rowBroadcast_apply (r : Vec Ideal S1x128 .f32) (p : Fin 2000) (q : Fin 128) :
    broadcastTo S2000x128 (shapeCast S1x128 r shapeCasts_S1x128_S1x128) broadcasts_S1x128_S2000x128 (ix2 p q)
      = r (ix2 (0 : Fin 1) q) := by
  rw [shapeCast_self]
  exact broadcastTo_1b_ab_apply r _ p q

/-! ## The block's arithmetic, in three named pieces -/

/-- The block the normalisation sees: the scaled features times the weights, plus the bias row. -/
def pre (x0 : Vec Ideal S2000x128 .f32) (x1 : Vec Ideal S2000x1 .f32) (x2 : Vec Ideal S128x128 .f32)
    (x3 : Vec Ideal S1x128 .f32) : FVec Ideal S2000x128 .f32 :=
  addf
    (matmul dot_S2000x128_S128x128_S2000x128_1_0_0_1_n_n none
      (truncf .bf16
        (mulf (shapeCast S2000x128 x0 shapeCasts_S2000x128_S2000x128)
          (broadcastTo S2000x128 (shapeCast S2000x1 x1 shapeCasts_S2000x1_S2000x1) broadcasts_S2000x1_S2000x128))
        bitsLt_bf16_f32)
      (truncf .bf16 x2 bitsLt_bf16_f32) (constant S2000x128 .f32 0x00000000#32))
    (broadcastTo S2000x128 (shapeCast S1x128 x3 shapeCasts_S1x128_S1x128) broadcasts_S1x128_S2000x128)

/-- The column of row means of a block: each row's lane sum divided by the number 128. -/
def colMean (Y : FVec Ideal S2000x128 .f32) : FVec Ideal S2000x1 .f32 :=
  divf
    (shapeCast S2000x1 (multiReduction (F := Ideal) .add [1] S2000 Y 0x00000000#32 reduces_S2000x128_S2000 (.inl rfl) rfl)
      shapeCasts_S2000_S2000x1)
    (broadcast S2000x1 (Scalar.ofBits .f32 0x43000000#32))

/-- A block with each row's mean taken off. -/
def centredBlock (Y : FVec Ideal S2000x128 .f32) : FVec Ideal S2000x128 .f32 :=
  subf Y (broadcastTo S2000x128 (colMean Y) broadcasts_S2000x1_S2000x128)

/-- The normalised block: centred, times the reciprocal root of the row's variance plus the small constant, times
    the gain row, plus the shift row. -/
def normBlock (Y : FVec Ideal S2000x128 .f32) (x4 x5 : Vec Ideal S1x128 .f32) : FVec Ideal S2000x128 .f32 :=
  addf
    (mulf
      (mulf (centredBlock Y)
        (broadcastTo S2000x128
          (rsqrt (addf (colMean (mulf (centredBlock Y) (centredBlock Y))) (broadcast S2000x1 (Scalar.ofBits .f32 0x3727C5AC#32))))
          broadcasts_S2000x1_S2000x128))
      (broadcastTo S2000x128 (shapeCast S1x128 x4 shapeCasts_S1x128_S1x128) broadcasts_S1x128_S2000x128))
    (broadcastTo S2000x128 (shapeCast S1x128 x5 shapeCasts_S1x128_S1x128) broadcasts_S1x128_S2000x128)

/-- The first kernel's pre-activation block is the normalised block of `pre`: the same operations, grouped. -/
theorem k0_pay2_eq (x0 : Vec Ideal S2000x128 .f32) (x1 : Vec Ideal S2000x1 .f32) (x2 : Vec Ideal S128x128 .f32)
    (x3 x4 x5 : Vec Ideal S1x128 .f32) :
    k0_pay2 (F := Ideal) x0 x1 x2 x3 x4 x5 = normBlock (pre x0 x1 x2 x3) x4 x5 := rfl

/-- The second kernel's pre-activation block likewise. -/
theorem k1_pay2_eq (x0 : Vec Ideal S2000x128 .f32) (x1 : Vec Ideal S2000x1 .f32) (x2 : Vec Ideal S128x128 .f32)
    (x3 x4 x5 : Vec Ideal S1x128 .f32) :
    k1_pay2 (F := Ideal) x0 x1 x2 x3 x4 x5 = normBlock (pre x0 x1 x2 x3) x4 x5 := rfl

/-! ## Each piece read at an index -/

/-- An entry of `pre`: the affine row entry of the specification. -/
theorem pre_apply (x0 : Vec Ideal S2000x128 .f32) (x1 : Vec Ideal S2000x1 .f32) (x2 : Vec Ideal S128x128 .f32)
    (x3 : Vec Ideal S1x128 .f32) (p : Fin 2000) (q : Fin 128) :
    pre x0 x1 x2 x3 (ix2 p q)
      = GraphLayer.affine (fun k => x0 (ix2 p k)) (x1 (ix2 p (0 : Fin 1))) (fun k j => x2 (ix2 k j)) (fun j => x3 (ix2 (0 : Fin 1) j)) q := by
  unfold pre GraphLayer.affine
  rw [addf_apply, matmul_apply, rowBroadcast_apply, shapeCast_self, shapeCast_self]
  refine congrArg (· + x3 (ix2 (0 : Fin 1) q)) (Finset.sum_congr rfl fun k _ => ?_)
  rw [truncf_apply, truncf_apply, mulf_apply, colBroadcast_apply]

/-- An entry of the column of means: the mean of the block's row. -/
theorem colMean_apply (Y : FVec Ideal S2000x128 .f32) (p : Fin 2000) (u : Fin 1) :
    colMean Y (ix2 p u) = GraphLayer.mean128 (fun k => Y (ix2 p k)) := by
  unfold colMean GraphLayer.mean128
  rw [divf_apply, rowSum_apply]
  rfl

/-- An entry of the centred block: the row's entry with the row's mean taken off. -/
theorem centredBlock_apply (Y : FVec Ideal S2000x128 .f32) (p : Fin 2000) (q : Fin 128) :
    centredBlock Y (ix2 p q) = GraphLayer.centred (fun k => Y (ix2 p k)) q := by
  unfold centredBlock GraphLayer.centred
  rw [subf_apply, colBroadcast_apply, colMean_apply]

/-- An entry of the normalised block: the specification's normalised row entry. -/
theorem normBlock_apply (Y : FVec Ideal S2000x128 .f32) (x4 x5 : Vec Ideal S1x128 .f32) (p : Fin 2000) (q : Fin 128) :
    normBlock Y x4 x5 (ix2 p q)
      = GraphLayer.layerNorm (fun k => Y (ix2 p k)) (fun j => x4 (ix2 (0 : Fin 1) j)) (fun j => x5 (ix2 (0 : Fin 1) j)) q := by
  have hsq : (fun k : Fin 128 => mulf (centredBlock Y) (centredBlock Y) (ix2 p k))
      = fun j => GraphLayer.centred (fun k => Y (ix2 p k)) j * GraphLayer.centred (fun k => Y (ix2 p k)) j :=
    funext fun k => by rw [mulf_apply, centredBlock_apply]
  unfold normBlock GraphLayer.layerNorm
  rw [addf_apply, mulf_apply, mulf_apply, centredBlock_apply, colBroadcast_apply, rowBroadcast_apply, rowBroadcast_apply]
  show _ * Ideal.rsqrt (colMean (mulf (centredBlock Y) (centredBlock Y)) (ix2 p (0 : Fin 1)) + Ideal.ofBits .f32 0x3727C5AC#32) * _ + _ = _
  rw [colMean_apply, hsq]

/-- The pre-activation entry of either kernel: the normalised affine row entry. -/
theorem act_apply (x0 : Vec Ideal S2000x128 .f32) (x1 : Vec Ideal S2000x1 .f32) (x2 : Vec Ideal S128x128 .f32)
    (x3 x4 x5 : Vec Ideal S1x128 .f32) (p : Fin 2000) (q : Fin 128) :
    normBlock (pre x0 x1 x2 x3) x4 x5 (ix2 p q)
      = GraphLayer.layerNorm
          (GraphLayer.affine (fun k => x0 (ix2 p k)) (x1 (ix2 p (0 : Fin 1))) (fun k j => x2 (ix2 k j)) (fun j => x3 (ix2 (0 : Fin 1) j)))
          (fun j => x4 (ix2 (0 : Fin 1) j)) (fun j => x5 (ix2 (0 : Fin 1) j)) q :=
  (normBlock_apply (pre x0 x1 x2 x3) x4 x5 p q).trans
    (congrArg (fun y => GraphLayer.layerNorm y (fun j => x4 (ix2 (0 : Fin 1) j)) (fun j => x5 (ix2 (0 : Fin 1) j)) q)
      (funext fun k => pre_apply x0 x1 x2 x3 p k))

/-! ## The stored values -/

/-- The first program's stored block at `(p, q)`: the node formula on row `p`. -/
theorem pay0_apply (x0 : Vec Ideal S2000x128 .f32) (x1 : Vec Ideal S2000x1 .f32) (x2 : Vec Ideal S128x128 .f32) (x3 x4 x5 : Vec Ideal S1x128 .f32) (p : Fin 2000) (q : Fin 128) :
    k0_pay1 (F := Ideal) (k0_pay2 x0 x1 x2 x3 x4 x5) (k0_pay3 x0 x1 x2 x3 x4 x5) (ix2 p q)
      = GraphLayer.node (fun k => x0 (ix2 p k)) (x1 (ix2 p 0)) (fun k j => x2 (ix2 k j)) (fun j => x3 (ix2 0 j)) (fun j => x4 (ix2 0 j)) (fun j => x5 (ix2 0 j)) q := by
  show k0_pay2 (F := Ideal) x0 x1 x2 x3 x4 x5 (ix2 p q) * Ideal.logistic (k0_pay2 (F := Ideal) x0 x1 x2 x3 x4 x5 (ix2 p q)) = _
  rw [k0_pay2_eq, act_apply]
  rfl

/-- The second program's stored block at `(p, q)`: the node formula on row `p`, plus the residual entry. -/
theorem pay1_apply (x0 : Vec Ideal S2000x128 .f32) (x1 : Vec Ideal S2000x1 .f32) (x2 : Vec Ideal S128x128 .f32) (x3 x4 x5 : Vec Ideal S1x128 .f32) (x6 : Vec Ideal S2000x128 .f32) (p : Fin 2000) (q : Fin 128) :
    k1_pay1 (F := Ideal) (k1_pay2 x0 x1 x2 x3 x4 x5) (k1_pay3 x0 x1 x2 x3 x4 x5) x6 (ix2 p q)
      = GraphLayer.node (fun k => x0 (ix2 p k)) (x1 (ix2 p 0)) (fun k j => x2 (ix2 k j)) (fun j => x3 (ix2 0 j)) (fun j => x4 (ix2 0 j)) (fun j => x5 (ix2 0 j)) q + x6 (ix2 p q) := by
  show k1_pay2 (F := Ideal) x0 x1 x2 x3 x4 x5 (ix2 p q) * Ideal.logistic (k1_pay2 (F := Ideal) x0 x1 x2 x3 x4 x5 (ix2 p q)) + x6 (ix2 p q) = _
  rw [k1_pay2_eq, act_apply]
  rfl

end Cert.KernelIdeal.BlockValue

end
-- ==== Proof.RegionValue.lean ====
/-
  What each of the two kernel regions leaves in its result array, as one function of the arrays the region finds.

  A region runs its body at fifty grid points; point t reads rows 2000·t … 2000·t + 1999 of the aggregated features,
  of the in-degree column and (second region) of the residual array, the whole weight matrix and the three row
  vectors, and writes rows 2000·t … 2000·t + 1999 of the result.  An entry (p, q) of the block point t stores is the
  per-node formula on row p of its feature block (the block lemma); row p of block t is row 2000·t + p of the array,
  lane for lane, so the block point t writes back is block t of ONE whole-array function: the layer applied node by
  node.  The fifty blocks tile the 100000 rows (row r is in the block of point r / 2000), so after the region the
  result array IS that function of the arrays as the region found them.  Stated for any contents `V` at the region's
  entry, so that the same statement serves whatever the host operations before the region computed.
-/
import proofs.«130483_j48936857371129_1_alg».proof.Proof.Gen.KernelIdeal.Frame
import proofs.«130483_j48936857371129_1_alg».proof.Proof.GraphLayer
import proofs.«130483_j48936857371129_1_alg».proof.Proof.BlockValue
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx
open Idealize.SL.Sem
open Cert.KernelIdeal Cert.KernelIdeal.Gen
open Idealize.ShloMosaic.Pipeline (Dat Cfg Window)
open Cert.KernelIdeal.BlockValue (pay0_apply pay1_apply)

/-- The layer over a whole array of nodes: row `j 0` of the aggregated features, that node's degree factor, the
    shared weight matrix and the three row vectors. -/
def layerArr (M : S100000x128.Idx → EReal) (ν : S100000x1.Idx → EReal) (W : S128x128.Idx → EReal) (b g β : S1x128.Idx → EReal) :
    S100000x128.Idx → EReal :=
  fun j => GraphLayer.node (fun k => M (ix2 (j 0) k)) (ν (ix2 (j 0) 0)) (fun k l => W (ix2 k l)) (fun l => b (ix2 0 l))
    (fun l => g (ix2 0 l)) (fun l => β (ix2 0 l)) (j 1)

variable (V : (c : Dev nD) → (b : Ref sig .tc) → Buf (Elt Ideal) ((c : Thread nD τ).loc b))

/-- A block's stores start at the block's origin. -/
theorem hz : (![0, 0] : Fin 2 → Nat) = fun _ => 0 := funext fun a => by fin_cases a <;> rfl

/-- The first region's printed index maps, decided over the grid: the feature, degree and result windows take block
    `t` along the rows at point `t`; the weight matrix and the row vectors stay at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` OF THE FIRST REGION WRITES BACK is block `t` of the layer of the arrays the region finds. -/
theorem flushed0_eq (c : Dev nD) (t : Fin cfg0.N) :
    (dat0 (F := Ideal) V c).flushed 6 t = ((cfg0.win 6).blk t).view.read (Elt Ideal)
      (layerArr (V c main_v32) (V c main_v13) (V c main_arg1) (V c main_v15) (V c main_v16) (V c main_v17)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz, View.ld_unit_zero (S := S1x128) hz]
  obtain ⟨e00, e01, e10, e11, e20, e21, e30, e31, e40, e41, e50, e51, e60, e61⟩ := idx_facts0 t
  funext y
  obtain ⟨p, q, rfl⟩ : ∃ (p : Fin 2000) (q : Fin 128), y = ix2 p q := ⟨y 0, y 1, eq_ix2 y⟩
  show k0_pay1 (F := Ideal) (k0_pay2 (iblk0 V c 0 t) (iblk0 V c 1 t) (iblk0 V c 2 t) (iblk0 V c 3 t) (iblk0 V c 4 t) (iblk0 V c 5 t))
        (k0_pay3 (iblk0 V c 0 t) (iblk0 V c 1 t) (iblk0 V c 2 t) (iblk0 V c 3 t) (iblk0 V c 4 t) (iblk0 V c 5 t)) (ix2 p q)
      = layerArr (V c main_v32) (V c main_v13) (V c main_arg1) (V c main_v15) (V c main_v16) (V c main_v17) (((cfg0.win 6).blk t).view.emb (ix2 p q))
  refine (pay0_apply (iblk0 V c 0 t) (iblk0 V c 1 t) (iblk0 V c 2 t) (iblk0 V c 3 t) (iblk0 V c 4 t) (iblk0 V c 5 t) p q).trans ?_
  unfold layerArr
  have h0 : ∀ k : Fin 128, iblk0 V c 0 t (ix2 p k) = V c main_v32 (ix2 ((((cfg0.win 6).blk t).view.emb (ix2 p q)) 0) k) := fun k => by
    show V c main_v32 (((cfg0.win 0).blk t).view.emb (ix2 p k)) = _
    refine congrArg (V c main_v32) ?_
    funext a; apply Fin.ext
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * k.val = k.val; omega
  have h1 : iblk0 V c 1 t (ix2 p 0) = V c main_v13 (ix2 ((((cfg0.win 6).blk t).view.emb (ix2 p q)) 0) 0) := by
    show V c main_v13 (((cfg0.win 1).blk t).view.emb (ix2 p 0)) = _
    refine congrArg (V c main_v13) ?_
    funext a; apply Fin.ext
    match a with
    | ⟨0, _⟩ => show win0_1.index t (0 : Fin 2) * 2000 + 1 * p.val = win0_6.index t (0 : Fin 2) * 2000 + 1 * p.val; omega
    | ⟨1, _⟩ => show win0_1.index t (1 : Fin 2) * 1 + 1 * 0 = 0; omega
  have h2 : ∀ (k l : Fin 128), iblk0 V c 2 t (ix2 k l) = V c main_arg1 (ix2 k l) := fun k l => by
    show V c main_arg1 (((cfg0.win 2).blk t).view.emb (ix2 k l)) = _
    refine congrArg (V c main_arg1) ?_
    funext a; apply Fin.ext
    match a with
    | ⟨0, _⟩ => show win0_2.index t (0 : Fin 2) * 128 + 1 * k.val = k.val; omega
    | ⟨1, _⟩ => show win0_2.index t (1 : Fin 2) * 128 + 1 * l.val = l.val; omega
  have h3 : ∀ (l : Fin 128), iblk0 V c 3 t (ix2 0 l) = V c main_v15 (ix2 0 l) := fun l => by
    show V c main_v15 (((cfg0.win 3).blk t).view.emb (ix2 0 l)) = _
    refine congrArg (V c main_v15) ?_
    funext a; apply Fin.ext
    match a with
    | ⟨0, _⟩ => show win0_3.index t (0 : Fin 2) * 1 + 1 * 0 = 0; omega
    | ⟨1, _⟩ => show win0_3.index t (1 : Fin 2) * 128 + 1 * l.val = l.val; omega
  have h4 : ∀ (l : Fin 128), iblk0 V c 4 t (ix2 0 l) = V c main_v16 (ix2 0 l) := fun l => by
    show V c main_v16 (((cfg0.win 4).blk t).view.emb (ix2 0 l)) = _
    refine congrArg (V c main_v16) ?_
    funext a; apply Fin.ext
    match a with
    | ⟨0, _⟩ => show win0_4.index t (0 : Fin 2) * 1 + 1 * 0 = 0; omega
    | ⟨1, _⟩ => show win0_4.index t (1 : Fin 2) * 128 + 1 * l.val = l.val; omega
  have h5 : ∀ (l : Fin 128), iblk0 V c 5 t (ix2 0 l) = V c main_v17 (ix2 0 l) := fun l => by
    show V c main_v17 (((cfg0.win 5).blk t).view.emb (ix2 0 l)) = _
    refine congrArg (V c main_v17) ?_
    funext a; apply Fin.ext
    match a with
    | ⟨0, _⟩ => show win0_5.index t (0 : Fin 2) * 1 + 1 * 0 = 0; omega
    | ⟨1, _⟩ => show win0_5.index t (1 : Fin 2) * 128 + 1 * l.val = l.val; omega
  have hq : (((cfg0.win 6).blk t).view.emb (ix2 p q)) 1 = q :=
    Fin.ext (by show win0_6.index t (1 : Fin 2) * 128 + 1 * q.val = q.val; omega)
  simp only [h0, h1, h2, h3, h4, h5, hq]

/-- An index of the first region's result array is in point `t`'s block iff each coordinate is in the block's range. -/
theorem mem_blk0 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v33).slice (win0_6.rect t)).set ↔ _
  rw [View.set_slice_whole, Rect.mem_set_unit]
  exact Iff.rfl

/-- Row `r` lies in the block of point `r / 2000`: the fifty blocks of 2000 rows tile the 100000 rows. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, -, -, e60, e61⟩ := idx_facts0 t
  have ht : t.val = (i 0).val / 2000 := rfl
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE FIRST REGION'S RESULT ARRAY after its run: the layer of the arrays the region finds. -/
theorem region0_value (c : Dev nD) :
    (dat0 (F := Ideal) V c).arrAt 6 cfg0.N
      = layerArr (V c main_v32) (V c main_v13) (V c main_arg1) (V c main_v15) (V c main_v16) (V c main_v17) :=
  (dat0 (F := Ideal) V c).arrAt_eq_of_cover 6 _ (fun t _ => flushed0_eq V c t) cover0

/-! ## The second region -/

/-- The layer with the skip connection: the layer's value plus the array `X` at the same index. -/
def layerResArr (M : S100000x128.Idx → EReal) (ν : S100000x1.Idx → EReal) (W : S128x128.Idx → EReal) (b g β : S1x128.Idx → EReal)
    (X : S100000x128.Idx → EReal) : S100000x128.Idx → EReal :=
  fun j => layerArr M ν W b g β j + X j

/-- The second region's printed index maps, decided over the grid: as in the first region, the residual window moving
    with the result window. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- WHAT POINT `t` OF THE SECOND REGION WRITES BACK is block `t` of the layer with the skip connection, of the arrays the region finds. -/
theorem flushed1_eq (c : Dev nD) (t : Fin cfg1.N) :
    (dat1 (F := Ideal) V c).flushed 7 t = ((cfg1.win 7).blk t).view.read (Elt Ideal)
      (layerResArr (V c main_v45) (V c main_v13) (V c main_arg5) (V c main_v18) (V c main_v19) (V c main_v20) (V c main_arg0)) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S128x128) hz, View.ld_unit_zero (S := S1x128) hz]
  obtain ⟨e00, e01, e10, e11, e20, e21, e30, e31, e40, e41, e50, e51, e60, e61, e70, e71⟩ := idx_facts1 t
  funext y
  obtain ⟨p, q, rfl⟩ : ∃ (p : Fin 2000) (q : Fin 128), y = ix2 p q := ⟨y 0, y 1, eq_ix2 y⟩
  show k1_pay1 (F := Ideal) (k1_pay2 (iblk1 V c 0 t) (iblk1 V c 1 t) (iblk1 V c 2 t) (iblk1 V c 3 t) (iblk1 V c 4 t) (iblk1 V c 5 t))
        (k1_pay3 (iblk1 V c 0 t) (iblk1 V c 1 t) (iblk1 V c 2 t) (iblk1 V c 3 t) (iblk1 V c 4 t) (iblk1 V c 5 t)) (iblk1 V c 6 t) (ix2 p q)
      = layerResArr (V c main_v45) (V c main_v13) (V c main_arg5) (V c main_v18) (V c main_v19) (V c main_v20) (V c main_arg0) (((cfg1.win 7).blk t).view.emb (ix2 p q))
  refine (pay1_apply (iblk1 V c 0 t) (iblk1 V c 1 t) (iblk1 V c 2 t) (iblk1 V c 3 t) (iblk1 V c 4 t) (iblk1 V c 5 t) (iblk1 V c 6 t) p q).trans ?_
  unfold layerResArr layerArr
  have h0 : ∀ k : Fin 128, iblk1 V c 0 t (ix2 p k) = V c main_v45 (ix2 ((((cfg1.win 7).blk t).view.emb (ix2 p q)) 0) k) := fun k => by
    show V c main_v45 (((cfg1.win 0).blk t).view.emb (ix2 p k)) = _
    refine congrArg (V c main_v45) ?_
    funext a; apply Fin.ext
    match a with
    | ⟨0, _⟩ => show win1_0.index t (0 : Fin 2) * 2000 + 1 * p.val = win1_7.index t (0 : Fin 2) * 2000 + 1 * p.val; omega
    | ⟨1, _⟩ => show win1_0.index t (1 : Fin 2) * 128 + 1 * k.val = k.val; omega
  have h1 : iblk1 V c 1 t (ix2 p 0) = V c main_v13 (ix2 ((((cfg1.win 7).blk t).view.emb (ix2 p q)) 0) 0) := by
    show V c main_v13 (((cfg1.win 1).blk t).view.emb (ix2 p 0)) = _
    refine congrArg (V c main_v13) ?_
    funext a; apply Fin.ext
    match a with
    | ⟨0, _⟩ => show win1_1.index t (0 : Fin 2) * 2000 + 1 * p.val = win1_7.index t (0 : Fin 2) * 2000 + 1 * p.val; omega
    | ⟨1, _⟩ => show win1_1.index t (1 : Fin 2) * 1 + 1 * 0 = 0; omega
  have h2 : ∀ (k l : Fin 128), iblk1 V c 2 t (ix2 k l) = V c main_arg5 (ix2 k l) := fun k l => by
    show V c main_arg5 (((cfg1.win 2).blk t).view.emb (ix2 k l)) = _
    refine congrArg (V c main_arg5) ?_
    funext a; apply Fin.ext
    match a with
    | ⟨0, _⟩ => show win1_2.index t (0 : Fin 2) * 128 + 1 * k.val = k.val; omega
    | ⟨1, _⟩ => show win1_2.index t (1 : Fin 2) * 128 + 1 * l.val = l.val; omega
  have h3 : ∀ (l : Fin 128), iblk1 V c 3 t (ix2 0 l) = V c main_v18 (ix2 0 l) := fun l => by
    show V c main_v18 (((cfg1.win 3).blk t).view.emb (ix2 0 l)) = _
    refine congrArg (V c main_v18) ?_
    funext a; apply Fin.ext
    match a with
    | ⟨0, _⟩ => show win1_3.index t (0 : Fin 2) * 1 + 1 * 0 = 0; omega
    | ⟨1, _⟩ => show win1_3.index t (1 : Fin 2) * 128 + 1 * l.val = l.val; omega
  have h4 : ∀ (l : Fin 128), iblk1 V c 4 t (ix2 0 l) = V c main_v19 (ix2 0 l) := fun l => by
    show V c main_v19 (((cfg1.win 4).blk t).view.emb (ix2 0 l)) = _
    refine congrArg (V c main_v19) ?_
    funext a; apply Fin.ext
    match a with
    | ⟨0, _⟩ => show win1_4.index t (0 : Fin 2) * 1 + 1 * 0 = 0; omega
    | ⟨1, _⟩ => show win1_4.index t (1 : Fin 2) * 128 + 1 * l.val = l.val; omega
  have h5 : ∀ (l : Fin 128), iblk1 V c 5 t (ix2 0 l) = V c main_v20 (ix2 0 l) := fun l => by
    show V c main_v20 (((cfg1.win 5).blk t).view.emb (ix2 0 l)) = _
    refine congrArg (V c main_v20) ?_
    funext a; apply Fin.ext
    match a with
    | ⟨0, _⟩ => show win1_5.index t (0 : Fin 2) * 1 + 1 * 0 = 0; omega
    | ⟨1, _⟩ => show win1_5.index t (1 : Fin 2) * 128 + 1 * l.val = l.val; omega
  have h6 : iblk1 V c 6 t (ix2 p q) = V c main_arg0 (((cfg1.win 7).blk t).view.emb (ix2 p q)) := by
    show V c main_arg0 (((cfg1.win 6).blk t).view.emb (ix2 p q)) = _
    refine congrArg (V c main_arg0) ?_
    funext a; apply Fin.ext
    match a with
    | ⟨0, _⟩ => show win1_6.index t (0 : Fin 2) * 2000 + 1 * p.val = win1_7.index t (0 : Fin 2) * 2000 + 1 * p.val; omega
    | ⟨1, _⟩ => show win1_6.index t (1 : Fin 2) * 128 + 1 * q.val = win1_7.index t (1 : Fin 2) * 128 + 1 * q.val; omega
  have hq : (((cfg1.win 7).blk t).view.emb (ix2 p q)) 1 = q :=
    Fin.ext (by show win1_7.index t (1 : Fin 2) * 128 + 1 * q.val = q.val; omega)
  simp only [h0, h1, h2, h3, h4, h5, h6, hq]

/-- An index of the second region's result array is in point `t`'s block iff each coordinate is in the block's range. -/
theorem mem_blk1 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v46).slice (win1_7.rect t)).set ↔ _
  rw [View.set_slice_whole, Rect.mem_set_unit]
  exact Iff.rfl

/-- The same tiling of the 100000 rows by fifty blocks of 2000. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, -, -, -, -, -, -, -, -, e70, e71⟩ := idx_facts1 t
  have ht : t.val = (i 0).val / 2000 := rfl
  refine ⟨t, flush1_7 t, ?_⟩
  rw [mem_blk1]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- THE SECOND REGION'S RESULT ARRAY after its run: the layer with the skip connection, of the arrays the region finds. -/
theorem region1_value (c : Dev nD) :
    (dat1 (F := Ideal) V c).arrAt 7 cfg1.N
      = layerResArr (V c main_v45) (V c main_v13) (V c main_arg5) (V c main_v18) (V c main_v19) (V c main_v20) (V c main_arg0) :=
  (dat1 (F := Ideal) V c).arrAt_eq_of_cover 7 _ (fun t _ => flushed1_eq V c t) cover1

end Cert.KernelIdeal.RegionValue

end
-- ==== Proof.RefLayer.lean ====
/-
  The reference program's two layers, read one entry at a time.

  The reference computes a layer on whole [100000, 128] arrays: the aggregated features are multiplied by the node
  factors (a column, broadcast along the rows), multiplied by the 128 × 128 weights, shifted by the bias (a row,
  broadcast down the columns); each row is then normalised (mean and variance as row sums divided by the literal 128,
  the reciprocal root of the variance plus a small constant), scaled by the gain, shifted, and sent through
  z ↦ z · (1 / (1 + exp (-z))).  Read at the entry (i, q), every array operation becomes the operation on numbers: a
  broadcast reads a fixed coordinate of its operand, the matrix product and the two row reductions become sums over
  the 128 entries of row i (a reduction starts from the constant zero, which adds nothing), and the element-wise
  operations are the extended reals' own.  Composed, the entry is `GraphLayer.node` of row i of the aggregated
  features, the node's factor, the weights, the bias, the gain and the shift; the constant one of the last step is the
  word `0x3F800000`, so that step is the logistic function as `GraphLayer.silu` writes it.  The second layer is the
  same chain on the next buffers, and the program's input is added to it at the end.  The aggregated features and the
  node factors are left as the named values the program computes them as; nothing about them is used.
-/
import proofs.«130483_j48936857371129_1_alg».proof.Proof.Gen.ReferenceIdeal.Read
import proofs.«130483_j48936857371129_1_alg».proof.Proof.GraphLayer
import Idealize.ShloMosaic.Lib.ValueIdx
import Idealize.ShloMosaic.Lib.IdealHost
import Idealize.ShloMosaic.PureOps.Ideal.Laws

noncomputable section

namespace Cert.ReferenceIdeal.LayerRead

open Idealize.ShloMosaic Idealize.ShloMosaic.ValueIdx Cert.ReferenceIdeal Cert.ReferenceIdeal.Read

/-- Two indices of rank two are equal when their two coordinates are. -/
local macro "idx2" : tactic => `(tactic| (funext a; match a with | ⟨0, _⟩ => rfl | ⟨1, _⟩ => rfl))
/-- Two indices of rank one are equal when their coordinates are. -/
local macro "idx1" : tactic => `(tactic| (funext a; match a with | ⟨0, _⟩ => rfl))

variable (x0 : (⟨S100000x128, .f32⟩ : BufTy).Contents (Elt Ideal))
variable (x1 : (⟨S128x128, .f32⟩ : BufTy).Contents (Elt Ideal))
variable (x2 x3 x4 : (⟨S128, .f32⟩ : BufTy).Contents (Elt Ideal))
variable (x5 : (⟨S128x128, .f32⟩ : BufTy).Contents (Elt Ideal))
variable (x6 x7 x8 : (⟨S128, .f32⟩ : BufTy).Contents (Elt Ideal))
variable (x9 x10 : (⟨S1600000, .i32⟩ : BufTy).Contents (Elt Ideal))
variable (i : Fin 100000)

/-! ## The first layer -/

/-- Row `i` of the first layer before its normalisation: the aggregated row scaled by the node's factor, times the
    weights, plus the bias. -/
def pre1 (q : Fin 128) : EReal :=
  GraphLayer.affine (fun k => val_main_v25 (F := Ideal) x0 x9 x10 (ix2 i k)) (val_main_v26 (F := Ideal) x10 (ix2 i 0))
    (fun k j => x1 (ix2 k j)) (fun j => x2 (ix1 j)) q

/-- The node factor, broadcast along the row, is the same number at every column. -/
theorem v27_at (k : Fin 128) :
    val_main_v27 (F := Ideal) x10 (ix2 i k) = val_main_v26 (F := Ideal) x10 (ix2 i 0) := by
  rw [val_main_v27_apply]
  exact congrArg (val_main_v26 (F := Ideal) x10) (by idx2)

/-- The scaled aggregated row. -/
theorem v28_at (k : Fin 128) :
    val_main_v28 (F := Ideal) x0 x9 x10 (ix2 i k)
      = val_main_v25 (F := Ideal) x0 x9 x10 (ix2 i k) * val_main_v26 (F := Ideal) x10 (ix2 i 0) := by
  rw [val_main_v28_apply, v27_at, Ideal.mulf_def]

/-- The matrix product at `(i, q)`: the contraction runs over the row's 128 entries. -/
theorem v29_at (q : Fin 128) :
    val_main_v29 (F := Ideal) x0 x1 x9 x10 (ix2 i q)
      = ∑ k : Fin 128, val_main_v25 (F := Ideal) x0 x9 x10 (ix2 i k) * val_main_v26 (F := Ideal) x10 (ix2 i 0) * x1 (ix2 k q) := by
  rw [val_main_v29_apply]
  refine Finset.sum_congr rfl fun k _ => ?_
  rw [show lidx_main_v29 (ix2 i q) k = ix2 i k from by idx2, show ridx_main_v29 (ix2 i q) k = ix2 k q from by idx2, v28_at]

/-- The bias, broadcast down the rows, is its entry `q` at column `q`. -/
theorem v31_at (q : Fin 128) : val_main_v31 (F := Ideal) x2 (ix2 i q) = x2 (ix1 q) := by
  rw [val_main_v31_apply, val_main_v30_apply]
  exact congrArg x2 (by idx1)

/-- The row the normalisation sees. -/
theorem v32_at (q : Fin 128) :
    val_main_v32 (F := Ideal) x0 x1 x2 x9 x10 (ix2 i q) = pre1 x0 x1 x2 x9 x10 i q := by
  rw [val_main_v32_apply, v29_at, v31_at]
  rfl

/-- The row's sum: the reduction starts from zero and adds the 128 entries. -/
theorem v33_at :
    val_main_v33 (F := Ideal) x0 x1 x2 x9 x10 (ix1 i) = ∑ q : Fin 128, pre1 x0 x1 x2 x9 x10 i q := by
  rw [val_main_v33_apply, val_main_cst_8_apply, Ideal.ofBits_def, Ideal.ofBits_zero_f32, zero_add]
  refine Finset.sum_congr rfl fun q _ => ?_
  rw [show idx_main_v33 (ix1 i) q = ix2 i q from by idx2, v32_at]

/-- The row's mean. -/
theorem v36_at :
    val_main_v36 (F := Ideal) x0 x1 x2 x9 x10 (ix2 i 0) = GraphLayer.mean128 (pre1 x0 x1 x2 x9 x10 i) := by
  rw [val_main_v36_apply, val_main_v34_apply, val_main_v35_apply, val_main_cst_9_apply,
    show idx_main_v34 (ix2 i 0) = ix1 i from by idx1, v33_at]
  rfl

/-- The mean, broadcast along the row (the copy the squares are taken with). -/
theorem v37_at (q : Fin 128) :
    val_main_v37 (F := Ideal) x0 x1 x2 x9 x10 (ix2 i q) = GraphLayer.mean128 (pre1 x0 x1 x2 x9 x10 i) := by
  rw [val_main_v37_apply, show idx_main_v37 (ix2 i q) = ix2 i 0 from by idx2, v36_at]

/-- The mean, broadcast along the row (the copy the output is centred with). -/
theorem v44_at (q : Fin 128) :
    val_main_v44 (F := Ideal) x0 x1 x2 x9 x10 (ix2 i q) = GraphLayer.mean128 (pre1 x0 x1 x2 x9 x10 i) := by
  rw [val_main_v44_apply, show idx_main_v44 (ix2 i q) = ix2 i 0 from by idx2, v36_at]

/-- The centred entry that is squared. -/
theorem v38_at (q : Fin 128) :
    val_main_v38 (F := Ideal) x0 x1 x2 x9 x10 (ix2 i q) = GraphLayer.centred (pre1 x0 x1 x2 x9 x10 i) q := by
  rw [val_main_v38_apply, v32_at, v37_at]
  rfl

/-- The centred entry that is normalised. -/
theorem v45_at (q : Fin 128) :
    val_main_v45 (F := Ideal) x0 x1 x2 x9 x10 (ix2 i q) = GraphLayer.centred (pre1 x0 x1 x2 x9 x10 i) q := by
  rw [val_main_v45_apply, v32_at, v44_at]
  rfl

/-- The square of the centred entry, as the product it is computed as. -/
theorem v39_at (q : Fin 128) :
    val_main_v39 (F := Ideal) x0 x1 x2 x9 x10 (ix2 i q)
      = GraphLayer.centred (pre1 x0 x1 x2 x9 x10 i) q * GraphLayer.centred (pre1 x0 x1 x2 x9 x10 i) q := by
  rw [val_main_v39_apply, v38_at, Ideal.mulf_def]

/-- The sum of the squares over the row. -/
theorem v40_at :
    val_main_v40 (F := Ideal) x0 x1 x2 x9 x10 (ix1 i)
      = ∑ q : Fin 128, GraphLayer.centred (pre1 x0 x1 x2 x9 x10 i) q * GraphLayer.centred (pre1 x0 x1 x2 x9 x10 i) q := by
  rw [val_main_v40_apply, val_main_cst_10_apply, Ideal.ofBits_def, Ideal.ofBits_zero_f32, zero_add]
  refine Finset.sum_congr rfl fun q _ => ?_
  rw [show idx_main_v40 (ix1 i) q = ix2 i q from by idx2, v39_at]

/-- The row's variance: the mean of the squares. -/
theorem v43_at :
    val_main_v43 (F := Ideal) x0 x1 x2 x9 x10 (ix2 i 0)
      = GraphLayer.mean128 (fun j => GraphLayer.centred (pre1 x0 x1 x2 x9 x10 i) j * GraphLayer.centred (pre1 x0 x1 x2 x9 x10 i) j) := by
  rw [val_main_v43_apply, val_main_v41_apply, val_main_v42_apply, val_main_cst_11_apply,
    show idx_main_v41 (ix2 i 0) = ix1 i from by idx1, v40_at]
  rfl

/-- The reciprocal root of the variance plus the small constant. -/
theorem v48_at :
    val_main_v48 (F := Ideal) x0 x1 x2 x9 x10 (ix2 i 0)
      = Ideal.rsqrt (GraphLayer.mean128 (fun j => GraphLayer.centred (pre1 x0 x1 x2 x9 x10 i) j * GraphLayer.centred (pre1 x0 x1 x2 x9 x10 i) j)
          + Ideal.ofBits .f32 0x3727C5AC#32) := by
  rw [val_main_v48_apply, val_main_v47_apply, v43_at, val_main_v46_apply, val_main_cst_12_apply]
  rfl

/-- The reciprocal root, broadcast along the row. -/
theorem v49_at (q : Fin 128) :
    val_main_v49 (F := Ideal) x0 x1 x2 x9 x10 (ix2 i q)
      = Ideal.rsqrt (GraphLayer.mean128 (fun j => GraphLayer.centred (pre1 x0 x1 x2 x9 x10 i) j * GraphLayer.centred (pre1 x0 x1 x2 x9 x10 i) j)
          + Ideal.ofBits .f32 0x3727C5AC#32) := by
  rw [val_main_v49_apply, show idx_main_v49 (ix2 i q) = ix2 i 0 from by idx2, v48_at]

/-- The gain, broadcast down the rows. -/
theorem v52_at (q : Fin 128) : val_main_v52 (F := Ideal) x3 (ix2 i q) = x3 (ix1 q) := by
  rw [val_main_v52_apply, val_main_v51_apply]
  exact congrArg x3 (by idx1)

/-- The shift, broadcast down the rows. -/
theorem v55_at (q : Fin 128) : val_main_v55 (F := Ideal) x4 (ix2 i q) = x4 (ix1 q) := by
  rw [val_main_v55_apply, val_main_v54_apply]
  exact congrArg x4 (by idx1)

/-- The normalised row, scaled and shifted. -/
theorem v56_at (q : Fin 128) :
    val_main_v56 (F := Ideal) x0 x1 x2 x3 x4 x9 x10 (ix2 i q)
      = GraphLayer.layerNorm (pre1 x0 x1 x2 x9 x10 i) (fun j => x3 (ix1 j)) (fun j => x4 (ix1 j)) q := by
  rw [val_main_v56_apply, val_main_v53_apply, val_main_v50_apply, v45_at, v49_at, v52_at, v55_at]
  rfl

/-- The first layer at `(i, q)`: the normalised entry `z` times `1 / (1 + exp (-z))`, the constant one being the word
    `0x3F800000`. -/
theorem layer1_apply (x0 : (⟨S100000x128, .f32⟩ : BufTy).Contents (Elt Ideal)) (x1 : (⟨S128x128, .f32⟩ : BufTy).Contents (Elt Ideal))
    (x2 x3 x4 : (⟨S128, .f32⟩ : BufTy).Contents (Elt Ideal)) (x9 x10 : (⟨S1600000, .i32⟩ : BufTy).Contents (Elt Ideal))
    (i : Fin 100000) (q : Fin 128) :
    val_main_v63 (F := Ideal) x0 x1 x2 x3 x4 x9 x10 (ix2 i q)
      = GraphLayer.node (fun k => val_main_v25 (F := Ideal) x0 x9 x10 (ix2 i k)) (val_main_v26 (F := Ideal) x10 (ix2 i 0))
          (fun k j => x1 (ix2 k j)) (fun j => x2 (ix1 j)) (fun j => x3 (ix1 j)) (fun j => x4 (ix1 j)) q := by
  rw [val_main_v63_apply, val_main_v62_apply, val_main_v61_apply, val_main_cst_14_apply, val_main_v60_apply,
    val_main_v59_apply, val_main_cst_13_apply, val_main_v58_apply, val_main_v57_apply, v56_at,
    Ideal.ofBits_def, Ideal.ofBits_one_f32]
  simp only [Ideal.mulf_def, Ideal.hostDivf_def, Ideal.addf_def, Ideal.hostUnary_exp_def, Ideal.hostNegf_def, Ideal.negf_def]
  rfl

/-! ## The second layer: the same operations on the first layer's aggregated output, with the second weights, and the
    input added at the end -/

/-- Row `i` of the second layer before its normalisation. -/
def pre2 (q : Fin 128) : EReal :=
  GraphLayer.affine (fun k => val_main_v76 (F := Ideal) x0 x1 x2 x3 x4 x9 x10 (ix2 i k)) (val_main_v77 (F := Ideal) x10 (ix2 i 0))
    (fun k j => x5 (ix2 k j)) (fun j => x6 (ix1 j)) q

/-- The node factor, broadcast along the row, is the same number at every column. -/
theorem v78_at (k : Fin 128) :
    val_main_v78 (F := Ideal) x10 (ix2 i k) = val_main_v77 (F := Ideal) x10 (ix2 i 0) := by
  rw [val_main_v78_apply]
  exact congrArg (val_main_v77 (F := Ideal) x10) (by idx2)

/-- The scaled aggregated row. -/
theorem v79_at (k : Fin 128) :
    val_main_v79 (F := Ideal) x0 x1 x2 x3 x4 x9 x10 (ix2 i k)
      = val_main_v76 (F := Ideal) x0 x1 x2 x3 x4 x9 x10 (ix2 i k) * val_main_v77 (F := Ideal) x10 (ix2 i 0) := by
  rw [val_main_v79_apply, v78_at, Ideal.mulf_def]

/-- The matrix product at `(i, q)`. -/
theorem v80_at (q : Fin 128) :
    val_main_v80 (F := Ideal) x0 x1 x2 x3 x4 x5 x9 x10 (ix2 i q)
      = ∑ k : Fin 128, val_main_v76 (F := Ideal) x0 x1 x2 x3 x4 x9 x10 (ix2 i k) * val_main_v77 (F := Ideal) x10 (ix2 i 0) * x5 (ix2 k q) := by
  rw [val_main_v80_apply]
  refine Finset.sum_congr rfl fun k _ => ?_
  rw [show lidx_main_v80 (ix2 i q) k = ix2 i k from by idx2, show ridx_main_v80 (ix2 i q) k = ix2 k q from by idx2, v79_at]

/-- The bias, broadcast down the rows. -/
theorem v82_at (q : Fin 128) : val_main_v82 (F := Ideal) x6 (ix2 i q) = x6 (ix1 q) := by
  rw [val_main_v82_apply, val_main_v81_apply]
  exact congrArg x6 (by idx1)

/-- The row the normalisation sees. -/
theorem v83_at (q : Fin 128) :
    val_main_v83 (F := Ideal) x0 x1 x2 x3 x4 x5 x6 x9 x10 (ix2 i q) = pre2 x0 x1 x2 x3 x4 x5 x6 x9 x10 i q := by
  rw [val_main_v83_apply, v80_at, v82_at]
  rfl

/-- The row's sum. -/
theorem v84_at :
    val_main_v84 (F := Ideal) x0 x1 x2 x3 x4 x5 x6 x9 x10 (ix1 i) = ∑ q : Fin 128, pre2 x0 x1 x2 x3 x4 x5 x6 x9 x10 i q := by
  rw [val_main_v84_apply, val_main_cst_18_apply, Ideal.ofBits_def, Ideal.ofBits_zero_f32, zero_add]
  refine Finset.sum_congr rfl fun q _ => ?_
  rw [show idx_main_v84 (ix1 i) q = ix2 i q from by idx2, v83_at]

/-- The row's mean. -/
theorem v87_at :
    val_main_v87 (F := Ideal) x0 x1 x2 x3 x4 x5 x6 x9 x10 (ix2 i 0) = GraphLayer.mean128 (pre2 x0 x1 x2 x3 x4 x5 x6 x9 x10 i) := by
  rw [val_main_v87_apply, val_main_v85_apply, val_main_v86_apply, val_main_cst_19_apply,
    show idx_main_v85 (ix2 i 0) = ix1 i from by idx1, v84_at]
  rfl

/-- The mean, broadcast along the row (the copy the squares are taken with). -/
theorem v88_at (q : Fin 128) :
    val_main_v88 (F := Ideal) x0 x1 x2 x3 x4 x5 x6 x9 x10 (ix2 i q) = GraphLayer.mean128 (pre2 x0 x1 x2 x3 x4 x5 x6 x9 x10 i) := by
  rw [val_main_v88_apply, show idx_main_v88 (ix2 i q) = ix2 i 0 from by idx2, v87_at]

/-- The mean, broadcast along the row (the copy the output is centred with). -/
theorem v95_at (q : Fin 128) :
    val_main_v95 (F := Ideal) x0 x1 x2 x3 x4 x5 x6 x9 x10 (ix2 i q) = GraphLayer.mean128 (pre2 x0 x1 x2 x3 x4 x5 x6 x9 x10 i) := by
  rw [val_main_v95_apply, show idx_main_v95 (ix2 i q) = ix2 i 0 from by idx2, v87_at]

/-- The centred entry that is squared. -/
theorem v89_at (q : Fin 128) :
    val_main_v89 (F := Ideal) x0 x1 x2 x3 x4 x5 x6 x9 x10 (ix2 i q) = GraphLayer.centred (pre2 x0 x1 x2 x3 x4 x5 x6 x9 x10 i) q := by
  rw [val_main_v89_apply, v83_at, v88_at]
  rfl

/-- The centred entry that is normalised. -/
theorem v96_at (q : Fin 128) :
    val_main_v96 (F := Ideal) x0 x1 x2 x3 x4 x5 x6 x9 x10 (ix2 i q) = GraphLayer.centred (pre2 x0 x1 x2 x3 x4 x5 x6 x9 x10 i) q := by
  rw [val_main_v96_apply, v83_at, v95_at]
  rfl

/-- The square of the centred entry. -/
theorem v90_at (q : Fin 128) :
    val_main_v90 (F := Ideal) x0 x1 x2 x3 x4 x5 x6 x9 x10 (ix2 i q)
      = GraphLayer.centred (pre2 x0 x1 x2 x3 x4 x5 x6 x9 x10 i) q * GraphLayer.centred (pre2 x0 x1 x2 x3 x4 x5 x6 x9 x10 i) q := by
  rw [val_main_v90_apply, v89_at, Ideal.mulf_def]

/-- The sum of the squares over the row. -/
theorem v91_at :
    val_main_v91 (F := Ideal) x0 x1 x2 x3 x4 x5 x6 x9 x10 (ix1 i)
      = ∑ q : Fin 128, GraphLayer.centred (pre2 x0 x1 x2 x3 x4 x5 x6 x9 x10 i) q * GraphLayer.centred (pre2 x0 x1 x2 x3 x4 x5 x6 x9 x10 i) q := by
  rw [val_main_v91_apply, val_main_cst_20_apply, Ideal.ofBits_def, Ideal.ofBits_zero_f32, zero_add]
  refine Finset.sum_congr rfl fun q _ => ?_
  rw [show idx_main_v91 (ix1 i) q = ix2 i q from by idx2, v90_at]

/-- The row's variance. -/
theorem v94_at :
    val_main_v94 (F := Ideal) x0 x1 x2 x3 x4 x5 x6 x9 x10 (ix2 i 0)
      = GraphLayer.mean128 (fun j => GraphLayer.centred (pre2 x0 x1 x2 x3 x4 x5 x6 x9 x10 i) j * GraphLayer.centred (pre2 x0 x1 x2 x3 x4 x5 x6 x9 x10 i) j) := by
  rw [val_main_v94_apply, val_main_v92_apply, val_main_v93_apply, val_main_cst_21_apply,
    show idx_main_v92 (ix2 i 0) = ix1 i from by idx1, v91_at]
  rfl

/-- The reciprocal root of the variance plus the small constant. -/
theorem v99_at :
    val_main_v99 (F := Ideal) x0 x1 x2 x3 x4 x5 x6 x9 x10 (ix2 i 0)
      = Ideal.rsqrt (GraphLayer.mean128 (fun j => GraphLayer.centred (pre2 x0 x1 x2 x3 x4 x5 x6 x9 x10 i) j * GraphLayer.centred (pre2 x0 x1 x2 x3 x4 x5 x6 x9 x10 i) j)
          + Ideal.ofBits .f32 0x3727C5AC#32) := by
  rw [val_main_v99_apply, val_main_v98_apply, v94_at, val_main_v97_apply, val_main_cst_22_apply]
  rfl

/-- The reciprocal root, broadcast along the row. -/
theorem v100_at (q : Fin 128) :
    val_main_v100 (F := Ideal) x0 x1 x2 x3 x4 x5 x6 x9 x10 (ix2 i q)
      = Ideal.rsqrt (GraphLayer.mean128 (fun j => GraphLayer.centred (pre2 x0 x1 x2 x3 x4 x5 x6 x9 x10 i) j * GraphLayer.centred (pre2 x0 x1 x2 x3 x4 x5 x6 x9 x10 i) j)
          + Ideal.ofBits .f32 0x3727C5AC#32) := by
  rw [val_main_v100_apply, show idx_main_v100 (ix2 i q) = ix2 i 0 from by idx2, v99_at]

/-- The gain, broadcast down the rows. -/
theorem v103_at (q : Fin 128) : val_main_v103 (F := Ideal) x7 (ix2 i q) = x7 (ix1 q) := by
  rw [val_main_v103_apply, val_main_v102_apply]
  exact congrArg x7 (by idx1)

/-- The shift, broadcast down the rows. -/
theorem v106_at (q : Fin 128) : val_main_v106 (F := Ideal) x8 (ix2 i q) = x8 (ix1 q) := by
  rw [val_main_v106_apply, val_main_v105_apply]
  exact congrArg x8 (by idx1)

/-- The normalised row, scaled and shifted. -/
theorem v107_at (q : Fin 128) :
    val_main_v107 (F := Ideal) x0 x1 x2 x3 x4 x5 x6 x7 x8 x9 x10 (ix2 i q)
      = GraphLayer.layerNorm (pre2 x0 x1 x2 x3 x4 x5 x6 x9 x10 i) (fun j => x7 (ix1 j)) (fun j => x8 (ix1 j)) q := by
  rw [val_main_v107_apply, val_main_v104_apply, val_main_v101_apply, v96_at, v100_at, v103_at, v106_at]
  rfl

/-- The second layer at `(i, q)`, and the program's input added to it. -/
theorem layer2_apply (x0 : (⟨S100000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 x7 x8 : (⟨S128, .f32⟩ : BufTy).Contents (Elt Ideal)) (x9 x10 : (⟨S1600000, .i32⟩ : BufTy).Contents (Elt Ideal))
    (i : Fin 100000) (q : Fin 128) :
    val_main_v115 (F := Ideal) x0 x1 x2 x3 x4 x5 x6 x7 x8 x9 x10 (ix2 i q)
      = GraphLayer.node (fun k => val_main_v76 (F := Ideal) x0 x1 x2 x3 x4 x9 x10 (ix2 i k)) (val_main_v77 (F := Ideal) x10 (ix2 i 0))
          (fun k j => x5 (ix2 k j)) (fun j => x6 (ix1 j)) (fun j => x7 (ix1 j)) (fun j => x8 (ix1 j)) q + x0 (ix2 i q) := by
  rw [val_main_v115_apply, val_main_v114_apply, val_main_v113_apply, val_main_v112_apply, val_main_cst_24_apply, val_main_v111_apply,
    val_main_v110_apply, val_main_cst_23_apply, val_main_v109_apply, val_main_v108_apply, v107_at,
    Ideal.ofBits_def, Ideal.ofBits_one_f32]
  simp only [Ideal.mulf_def, Ideal.hostDivf_def, Ideal.addf_def, Ideal.hostUnary_exp_def, Ideal.hostNegf_def, Ideal.negf_def]
  rfl

end Cert.ReferenceIdeal.LayerRead

end
-- ==== Proof.KernelResult.lean ====
/-
  The kernel program's result array is the reference's last stage of the same arguments.

  The program is five stretches of host operations, the first layer's region, one more stretch, the second layer's
  region.  Its host operations are, operation for operation, the reference's own: the two degree counts by
  scatter-add, their clamp at one and power −1/2, the source-side scaling of the features, the gather along the
  edges' sources and the scatter-add into the edges' destinations.  So each array a region finds is, as a term, one
  of the reference's stages of the launch arguments: the aggregated features are the reference's aggregate, the
  in-degree column its column, and the three row vectors are the arguments themselves laid out as one row (entry
  (0, l) of the row is entry l of the argument).  A region's result is the layer, node by node, of what it finds
  (the region values), and the reference's stage after a layer is the same node formula of the same stages (the
  reference's layers read at an index); hence the first region's result IS the reference's first-layer stage, the
  stretch between the regions carries it through the same scale, gather and scatter-add as the reference does, and
  the second region's result IS the reference's result.  No host operation is opened: the scatter-adds and gathers
  stay the named operations they are on both sides, applied to equal operands.
-/
import proofs.«130483_j48936857371129_1_alg».proof.Proof.Gen.KernelIdeal.Frame
import proofs.«130483_j48936857371129_1_alg».proof.Proof.Gen.ReferenceIdeal.Read
import proofs.«130483_j48936857371129_1_alg».proof.Proof.RegionValue
import proofs.«130483_j48936857371129_1_alg».proof.Proof.RefLayer
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Result

open Idealize.ShloMosaic Idealize.ShloMosaic.TcCoe Idealize.ShloMosaic.StableHlo Idealize.ShloMosaic.ValueIdx
open Idealize.SL.Sem
open Cert.KernelIdeal Cert.KernelIdeal.Gen Cert.KernelIdeal.RegionValue
open Cert.ReferenceIdeal.Read (val_main_v25 val_main_v26 val_main_v63 val_main_v64 val_main_v76 val_main_v77 val_main_v115)
open Cert.ReferenceIdeal.LayerRead (layer1_apply layer2_apply)

section AnyFloats

/-! ## Host values, for any float family

The host operations are compared as terms, operation for operation, so nothing about the numbers enters: the
statements hold for every interpretation of the float operations, and are stated so. -/

variable {F : FTy → Type} [FloatOps F]
variable (m : (ℓ : Loc nD τ sig) → Buf (Elt F) ℓ) (ρ : Dev nD → PrngReg) (c : Dev nD)

/-! ### The launch arguments on core `c` -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)

/-! ### What the first region finds -/

/-- The aggregated features entering the first region are the reference's first aggregate. -/
theorem v32_eq : V5 m ρ c main_v32 = val_main_v25 (F := F) (x0 m c) (x9 m c) (x10 m c) := by
  dsimp only [V5, W5, W4, W3, W2, W1, hostOps0, hostOps0_1, hostOps0_2, hostOps0_3, hostOps0_4]
  after_results_simp <;> (try simp only [TRef.ofBuf, TRef.toBuf, cast_eq]) <;> rfl

/-- The in-degree column is the reference's. -/
theorem v13_eq : V5 m ρ c main_v13 = val_main_v26 (F := F) (x10 m c) := by
  dsimp only [V5, W5, W4, W3, W2, W1, hostOps0, hostOps0_1, hostOps0_2, hostOps0_3, hostOps0_4]
  after_results_simp <;> (try simp only [TRef.ofBuf, TRef.toBuf, cast_eq]) <;> rfl

/-- The out-degree column is the reference's. -/
theorem v14_eq : V5 m ρ c main_v14 = val_main_v64 (F := F) (x9 m c) := by
  dsimp only [V5, W5, W4, W3, W2, W1, hostOps0, hostOps0_1, hostOps0_2, hostOps0_3, hostOps0_4]
  after_results_simp <;> (try simp only [TRef.ofBuf, TRef.toBuf, cast_eq]) <;> rfl

/-- Each of the six length-128 arguments is laid out as one row before the first region. -/
theorem v15_eq5 : V5 m ρ c main_v15 = shapeCast S1x128 (x2 m c) shapeCasts_S128_S1x128 := by
  dsimp only [V5, W5, W4, W3, W2, W1, hostOps0, hostOps0_1, hostOps0_2, hostOps0_3, hostOps0_4]
  after_results_simp <;> (try simp only [TRef.ofBuf, TRef.toBuf, cast_eq]) <;> rfl
theorem v16_eq5 : V5 m ρ c main_v16 = shapeCast S1x128 (x3 m c) shapeCasts_S128_S1x128 := by
  dsimp only [V5, W5, W4, W3, W2, W1, hostOps0, hostOps0_1, hostOps0_2, hostOps0_3, hostOps0_4]
  after_results_simp <;> (try simp only [TRef.ofBuf, TRef.toBuf, cast_eq]) <;> rfl
theorem v17_eq5 : V5 m ρ c main_v17 = shapeCast S1x128 (x4 m c) shapeCasts_S128_S1x128 := by
  dsimp only [V5, W5, W4, W3, W2, W1, hostOps0, hostOps0_1, hostOps0_2, hostOps0_3, hostOps0_4]
  after_results_simp <;> (try simp only [TRef.ofBuf, TRef.toBuf, cast_eq]) <;> rfl
theorem v18_eq5 : V5 m ρ c main_v18 = shapeCast S1x128 (x6 m c) shapeCasts_S128_S1x128 := by
  dsimp only [V5, W5, W4, W3, W2, W1, hostOps0, hostOps0_1, hostOps0_2, hostOps0_3, hostOps0_4]
  after_results_simp <;> (try simp only [TRef.ofBuf, TRef.toBuf, cast_eq]) <;> rfl
theorem v19_eq5 : V5 m ρ c main_v19 = shapeCast S1x128 (x7 m c) shapeCasts_S128_S1x128 := by
  dsimp only [V5, W5, W4, W3, W2, W1, hostOps0, hostOps0_1, hostOps0_2, hostOps0_3, hostOps0_4]
  after_results_simp <;> (try simp only [TRef.ofBuf, TRef.toBuf, cast_eq]) <;> rfl
theorem v20_eq5 : V5 m ρ c main_v20 = shapeCast S1x128 (x8 m c) shapeCasts_S128_S1x128 := by
  dsimp only [V5, W5, W4, W3, W2, W1, hostOps0, hostOps0_1, hostOps0_2, hostOps0_3, hostOps0_4]
  after_results_simp <;> (try simp only [TRef.ofBuf, TRef.toBuf, cast_eq]) <;> rfl

/-- An argument no host operation writes is still the argument when the first region is entered. -/
theorem arg1_eq5 : V5 m ρ c main_arg1 = x1 m c := by
  dsimp only [V5, W5, W4, W3, W2, W1, hostOps0, hostOps0_1, hostOps0_2, hostOps0_3, hostOps0_4]
  after_results_simp <;> (try simp only [TRef.ofBuf, TRef.toBuf, cast_eq]) <;> rfl
theorem arg5_eq5 : V5 m ρ c main_arg5 = x5 m c := by
  dsimp only [V5, W5, W4, W3, W2, W1, hostOps0, hostOps0_1, hostOps0_2, hostOps0_3, hostOps0_4]
  after_results_simp <;> (try simp only [TRef.ofBuf, TRef.toBuf, cast_eq]) <;> rfl
theorem arg0_eq5 : V5 m ρ c main_arg0 = x0 m c := by
  dsimp only [V5, W5, W4, W3, W2, W1, hostOps0, hostOps0_1, hostOps0_2, hostOps0_3, hostOps0_4]
  after_results_simp <;> (try simp only [TRef.ofBuf, TRef.toBuf, cast_eq]) <;> rfl
theorem arg9_eq5 : V5 m ρ c main_arg9 = x9 m c := by
  dsimp only [V5, W5, W4, W3, W2, W1, hostOps0, hostOps0_1, hostOps0_2, hostOps0_3, hostOps0_4]
  after_results_simp <;> (try simp only [TRef.ofBuf, TRef.toBuf, cast_eq]) <;> rfl
theorem arg10_eq5 : V5 m ρ c main_arg10 = x10 m c := by
  dsimp only [V5, W5, W4, W3, W2, W1, hostOps0, hostOps0_1, hostOps0_2, hostOps0_3, hostOps0_4]
  after_results_simp <;> (try simp only [TRef.ofBuf, TRef.toBuf, cast_eq]) <;> rfl

/-! ### What the second region finds

The first region writes only its result array, and the stretch between the regions writes only the second
aggregate's intermediate values: every other buffer the second region reads is as the first region found it. -/

/-- The in-degree column is an input window of the first region: the region leaves it as found. -/
theorem v13_keep7 : V7 m ρ c main_v13 = V5 m ρ c main_v13 := by
  have h : V7 m ρ c main_v13 = W6 m ρ c (Proc.devRef .tc main_v13) := by
    dsimp only [V7, W7, hostOps1]
    after_results_simp
  exact h.trans ((W6_arr m ρ c 1).trans (((dat0 (V5 m ρ) c).arrAt_in 1 rfl _).trans (A_eq0 (V5 m ρ) c 1)))
theorem v18_keep7 : V7 m ρ c main_v18 = V5 m ρ c main_v18 := by
  have h : V7 m ρ c main_v18 = W6 m ρ c (Proc.devRef .tc main_v18) := by
    dsimp only [V7, W7, hostOps1]
    after_results_simp
  exact h.trans (W6_of_ne m ρ c main_v18 (by decide))
theorem v19_keep7 : V7 m ρ c main_v19 = V5 m ρ c main_v19 := by
  have h : V7 m ρ c main_v19 = W6 m ρ c (Proc.devRef .tc main_v19) := by
    dsimp only [V7, W7, hostOps1]
    after_results_simp
  exact h.trans (W6_of_ne m ρ c main_v19 (by decide))
theorem v20_keep7 : V7 m ρ c main_v20 = V5 m ρ c main_v20 := by
  have h : V7 m ρ c main_v20 = W6 m ρ c (Proc.devRef .tc main_v20) := by
    dsimp only [V7, W7, hostOps1]
    after_results_simp
  exact h.trans (W6_of_ne m ρ c main_v20 (by decide))
theorem arg5_keep7 : V7 m ρ c main_arg5 = V5 m ρ c main_arg5 := by
  have h : V7 m ρ c main_arg5 = W6 m ρ c (Proc.devRef .tc main_arg5) := by
    dsimp only [V7, W7, hostOps1]
    after_results_simp
  exact h.trans (W6_of_ne m ρ c main_arg5 (by decide))
theorem arg0_keep7 : V7 m ρ c main_arg0 = V5 m ρ c main_arg0 := by
  have h : V7 m ρ c main_arg0 = W6 m ρ c (Proc.devRef .tc main_arg0) := by
    dsimp only [V7, W7, hostOps1]
    after_results_simp
  exact h.trans (W6_of_ne m ρ c main_arg0 (by decide))

/-- The aggregated features entering the second region: the stretch between the regions applied to whatever the first
    region left in its result array (`Y`), the reference's own scale, gather and scatter-add. -/
theorem v45_of (Y : (⟨S100000x128, .f32⟩ : BufTy).Contents (Elt F)) (hY : W6 m ρ c (Proc.devRef .tc main_v33) = Y) :
    V7 m ρ c main_v45
      = Host.scatterAdd Cert.ReferenceIdeal.scatter_S100000x128_S1600000x1_S1600000x128_1_0_0_1 (Cert.ReferenceIdeal.Read.val_main_v74 (F := F))
          (Cert.ReferenceIdeal.Read.val_main_v75 (F := F) (x10 m c))
          (Host.gather Cert.ReferenceIdeal.gather_S100000x128_S1600000x1_S1600000x128_1_0_n_n_0_1_1128
            (mulf Y (Cert.ReferenceIdeal.Read.val_main_v65 (F := F) (x9 m c))) (Cert.ReferenceIdeal.Read.val_main_v72 (F := F) (x9 m c))) := by
  dsimp only [V7, W7, hostOps1]
  after_results_simp
  rw [hY, W6_of_ne m ρ c main_v14 (by decide), W6_of_ne m ρ c main_arg9 (by decide), W6_of_ne m ρ c main_arg10 (by decide)]
  rw [show W5 m ρ c (Proc.devRef .tc main_v14) = val_main_v64 (F := F) (x9 m c) from v14_eq m ρ c,
    show W5 m ρ c (Proc.devRef .tc main_arg9) = x9 m c from arg9_eq5 m ρ c,
    show W5 m ρ c (Proc.devRef .tc main_arg10) = x10 m c from arg10_eq5 m ρ c]
  rfl

/-- The reference's second aggregate, one level open: the same scale, gather and scatter-add of its first-layer stage. -/
theorem v76_open (y0 : (⟨Cert.ReferenceIdeal.S100000x128, .f32⟩ : BufTy).Contents (Elt F)) (y1 : (⟨Cert.ReferenceIdeal.S128x128, .f32⟩ : BufTy).Contents (Elt F))
    (y2 y3 y4 : (⟨Cert.ReferenceIdeal.S128, .f32⟩ : BufTy).Contents (Elt F)) (y9 y10 : (⟨Cert.ReferenceIdeal.S1600000, .i32⟩ : BufTy).Contents (Elt F)) :
    val_main_v76 (F := F) y0 y1 y2 y3 y4 y9 y10
      = Host.scatterAdd Cert.ReferenceIdeal.scatter_S100000x128_S1600000x1_S1600000x128_1_0_0_1 (Cert.ReferenceIdeal.Read.val_main_v74 (F := F))
          (Cert.ReferenceIdeal.Read.val_main_v75 (F := F) y10)
          (Host.gather Cert.ReferenceIdeal.gather_S100000x128_S1600000x1_S1600000x128_1_0_n_n_0_1_1128
            (mulf (val_main_v63 (F := F) y0 y1 y2 y3 y4 y9 y10) (Cert.ReferenceIdeal.Read.val_main_v65 (F := F) y9)) (Cert.ReferenceIdeal.Read.val_main_v72 (F := F) y9)) := rfl

end AnyFloats

section AtTheExtendedReals

/-! ## The two results, over the extended reals -/

variable (m : (ℓ : Loc nD τ sig) → Buf (Elt Ideal) ℓ) (ρ : Dev nD → PrngReg) (c : Dev nD)

/-- A length-128 argument laid out as one row: entry (0, l) of the row is entry l of the argument. -/
theorem row_apply (x : S128.Idx → EReal) (l : Fin 128) :
    shapeCast S1x128 x shapeCasts_S128_S1x128 (ix2 (0 : Fin 1) l) = x (ix1 l) :=
  shapeCast_apply x shapeCasts_S128_S1x128 _ _ (by
    rw [Shape.rowMajor_val_two, Shape.rowMajor_val_one]
    show l.val = 0 * 128 + l.val
    omega)

/-- After the first region its result array is the reference's first-layer stage. -/
theorem v33_eq : W6 m ρ c (Proc.devRef .tc main_v33) = val_main_v63 (F := Ideal) (x0 m c) (x1 m c) (x2 m c) (x3 m c) (x4 m c) (x9 m c) (x10 m c) := by
  refine (W6_arr m ρ c 6).trans ((region0_value (V5 m ρ) c).trans ?_)
  rw [v32_eq, v13_eq, arg1_eq5, v15_eq5, v16_eq5, v17_eq5]
  funext j
  obtain ⟨i, q, rfl⟩ : ∃ (i : Fin 100000) (q : Fin 128), j = ix2 i q := ⟨j 0, j 1, eq_ix2 j⟩
  rw [layer1_apply]
  show GraphLayer.node _ _ _ (fun l => shapeCast S1x128 (x2 m c) shapeCasts_S128_S1x128 (ix2 (0 : Fin 1) l))
      (fun l => shapeCast S1x128 (x3 m c) shapeCasts_S128_S1x128 (ix2 (0 : Fin 1) l))
      (fun l => shapeCast S1x128 (x4 m c) shapeCasts_S128_S1x128 (ix2 (0 : Fin 1) l)) q = _
  simp only [row_apply]

/-- The aggregated features entering the second region are the reference's second aggregate. -/
theorem v45_eq : V7 m ρ c main_v45 = val_main_v76 (F := Ideal) (x0 m c) (x1 m c) (x2 m c) (x3 m c) (x4 m c) (x9 m c) (x10 m c) :=
  (v45_of m ρ c _ (v33_eq m ρ c)).trans (v76_open (x0 m c) (x1 m c) (x2 m c) (x3 m c) (x4 m c) (x9 m c) (x10 m c)).symm

/-- THE KERNEL PROGRAM'S RESULT ARRAY after the run is the reference's result stage of the launch arguments. -/
theorem result_eq : W8 m ρ c (Proc.devRef .tc main_v46)
    = val_main_v115 (F := Ideal) (x0 m c) (x1 m c) (x2 m c) (x3 m c) (x4 m c) (x5 m c) (x6 m c) (x7 m c) (x8 m c) (x9 m c) (x10 m c) := by
  refine (W8_arr m ρ c 7).trans ((region1_value (V7 m ρ) c).trans ?_)
  rw [v45_eq, v13_keep7, v13_eq, arg5_keep7, arg5_eq5, arg0_keep7, arg0_eq5, v18_keep7, v18_eq5, v19_keep7, v19_eq5, v20_keep7, v20_eq5]
  funext j
  obtain ⟨i, q, rfl⟩ : ∃ (i : Fin 100000) (q : Fin 128), j = ix2 i q := ⟨j 0, j 1, eq_ix2 j⟩
  rw [layer2_apply, show val_main_v77 (F := Ideal) (x10 m c) = val_main_v26 (F := Ideal) (x10 m c) from rfl]
  show GraphLayer.node _ _ _ (fun l => shapeCast S1x128 (x6 m c) shapeCasts_S128_S1x128 (ix2 (0 : Fin 1) l))
      (fun l => shapeCast S1x128 (x7 m c) shapeCasts_S128_S1x128 (ix2 (0 : Fin 1) l))
      (fun l => shapeCast S1x128 (x8 m c) shapeCasts_S128_S1x128 (ix2 (0 : Fin 1) l)) q + _ = _
  simp only [row_apply]

end AtTheExtendedReals

end Cert.KernelIdeal.Result

end
-- ==== Proof.lean ====
/-
  The certificate of a two-layer graph block against its plain reference, over the extended reals.

  Each layer aggregates the node features over the graph's edges (scale by the source's out-degree factor, gather along
  the edges, scatter-add into the destinations), scales by the destination's in-degree factor, applies a 128 × 128
  weight matrix and a bias, normalises each node's row, and applies z · σ(z); the second layer adds the input back.
  The kernel program does the aggregation with the same host operations as the reference and the rest of each layer in a
  tiled region, 2000 nodes at a time; the reference does everything on whole arrays.

  Both programs compute, node by node, the SAME formula of the same operands (`GraphLayer.node`): the kernel's matrix
  product into a zero accumulator and the reference's are one sum over the 128 input features, the two row reductions
  are one sum over the 128 lanes, the change of number format before the product is the identity on the extended
  reals, the kernel's logistic function is by definition the reference's 1 / (1 + exp(−z)), and every constant is the
  same word on both sides.  No algebraic law beyond re-indexing a finite sum is needed, so the precondition is never
  opened: the equality holds at every extended-real input.

  The frames of the two kernel programs are the generated ones; the reference's frame is its generated run with the
  result dropped; the idealization rewrote no operation, so `preserves` is trivial; `algebraic` puts the kernel
  program's run with its result named beside the reference's run and identifies the two results (`result_eq`).
-/
import proofs.«130483_j48936857371129_1_alg».proof.Defs
import proofs.«130483_j48936857371129_1_alg».proof.Proof.Gen.Kernel
import proofs.«130483_j48936857371129_1_alg».proof.Proof.Gen.Kernel.Skeleton
import proofs.«130483_j48936857371129_1_alg».proof.Proof.Gen.Kernel.Launch
import proofs.«130483_j48936857371129_1_alg».proof.Proof.Gen.Kernel.Points
import proofs.«130483_j48936857371129_1_alg».proof.Proof.Gen.Kernel.Frame
import proofs.«130483_j48936857371129_1_alg».proof.Proof.Gen.KernelIdeal
import proofs.«130483_j48936857371129_1_alg».proof.Proof.Gen.KernelIdeal.Skeleton
import proofs.«130483_j48936857371129_1_alg».proof.Proof.Gen.KernelIdeal.Launch
import proofs.«130483_j48936857371129_1_alg».proof.Proof.Gen.KernelIdeal.Points
import proofs.«130483_j48936857371129_1_alg».proof.Proof.Gen.KernelIdeal.Frame
import proofs.«130483_j48936857371129_1_alg».proof.Proof.Gen.ReferenceIdeal
import proofs.«130483_j48936857371129_1_alg».proof.Proof.Gen.ReferenceIdeal.Run
import proofs.«130483_j48936857371129_1_alg».proof.Proof.Gen.ReferenceIdeal.Read
import proofs.«130483_j48936857371129_1_alg».proof.Proof.Gen.Pre_finite_inputs
import proofs.«130483_j48936857371129_1_alg».proof.Proof.RunNamed
import proofs.«130483_j48936857371129_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with equal results: the kernel program's
    result array is the reference's last stage of its own arguments, which are the reference's arguments. -/
theorem algebraic : Cert.algebraic_KernelIdeal_ReferenceIdeal := by
  intro m ρ m' ρ' _ hagree
  refine ⟨fun c => Cert.KernelIdeal.Gen.W8 m ρ c (Proc.devRef .tc Cert.KernelIdeal.main_v46),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v115 m' c = Cert.KernelIdeal.Gen.W8 m ρ c (Proc.devRef .tc Cert.KernelIdeal.main_v46)
  rw [Cert.ReferenceIdeal.Read.val_main_v115_eq, Cert.KernelIdeal.Result.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
